-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S600000 : Shape := ⟨1, ![600000]⟩
abbrev S100000x128 : Shape := ⟨2, ![100000, 128]⟩
abbrev S4x128 : Shape := ⟨2, ![4, 128]⟩
abbrev S128x128 : Shape := ⟨2, ![128, 128]⟩
abbrev S128 : Shape := ⟨1, ![128]⟩
abbrev S_ : Shape := ⟨0, ![]⟩

class Facts : Prop where
  bcast_S_S600000 : S_.BroadcastsInDim S600000 (![] : Fin 0 → Fin S600000.rank)
  reducesTo_S600000_S_d0 : S600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg9 : FVec F S128x128 .f32) (main_arg10 : FVec F S128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S128x128 .f32 := Host.absf main_arg9
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg10
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S100000 32) (main_arg1 : IVec S100000 32) (main_arg2 : IVec S100000 32) (main_arg3 : IVec S600000 32) (main_arg4 : IVec S600000 32) (main_arg5 : FVec F S600000 .f32) (main_arg6 : FVec F S100000x128 .f32) (main_arg7 : FVec F S100000x128 .f32) (main_arg8 : FVec F S4x128 .f32) (main_arg9 : FVec F S128x128 .f32) (main_arg10 : FVec F S128 .f32) : IVec S_ 1 :=
  let main_v0 : FVec F S600000 .f32 := Host.absf main_arg5
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S100000x128 .f32 := Host.absf main_arg6
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg7
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S4x128 .f32 := Host.absf main_arg8
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg9 main_arg10 main_v13 main_v16
-- ==== Kernel.lean ====
abbrev S100000 : Shape := ⟨1, ![100000]⟩
abbrev S600000 : Shape := ⟨1, ![600000]⟩
abbrev S100000x128 : Shape := ⟨2, ![100000, 128]⟩
abbrev S4x128 : Shape := ⟨2, ![4, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S600000x1 : Shape := ⟨2, ![600000, 1]⟩
abbrev S600000x128 : Shape := ⟨2, ![600000, 128]⟩
abbrev S4000x128 : Shape := ⟨2, ![4000, 128]⟩
abbrev S1x128 : Shape := ⟨2, ![1, 128]⟩

abbrev nBuf : Space → Nat
  | .hbm => 58
  | .vmem => 6
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S100000, .i32⟩
  | .hbm, ⟨3, _⟩ => ⟨S600000, .i32⟩
  | .hbm, ⟨4, _⟩ => ⟨S600000, .i32⟩
  | .hbm, ⟨5, _⟩ => ⟨S600000, .f32⟩
  | .hbm, ⟨6, _⟩ => ⟨S100000x128, .f32⟩
  | .hbm, ⟨7, _⟩ => ⟨S100000x128, .f32⟩
  | .hbm, ⟨8, _⟩ => ⟨S4x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S100000x128, .f32⟩
  | .hbm, ⟨20, _⟩ => ⟨S_, .i32⟩
  | .hbm, ⟨21, _⟩ => ⟨S100000, .i32⟩
  | .hbm, ⟨22, _⟩ => ⟨S100000, .i1⟩
  | .hbm, ⟨23, _⟩ => ⟨S_, .i32⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x128, .f32⟩
  | .hbm, ⟨39, _⟩ => ⟨S100000x128, .f32⟩
  | .hbm, ⟨40, _⟩ => ⟨S600000x1, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S100000x128, .f32⟩
  | .hbm, ⟨54, _⟩ => ⟨S600000x1, .i32⟩
  | .hbm, ⟨55, _⟩ => ⟨S100000x128, .f32⟩
  | .hbm, ⟨56, _⟩ => ⟨S128x128, .f32⟩
  | .hbm, ⟨57, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S100000x128_S100000x1_S100000x128_1_0_n_n_0_1_1128_wf : GatherDims.WF S100000x128 S100000x1 S100000x128 [1] [0] [] [0] [] 1 ![1, 128]
  gather_S4x128_S100000x1_S100000x128_1_0_n_n_0_1_1128_wf : GatherDims.WF S4x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S4x128_S100000x1_S100000x128_1_0_n_n_0_1_1128 : GatherDims S4x128 S100000x1 S100000x128 where
  offsetDims := [1]
  collapsedSliceDims := [0]
  operandBatchingDims := []
  startIndicesBatchingDims := []
  startIndexMap := [0]
  indexVectorDim := 1
  sliceSizes := ![1, 128]
  wf := gather_S4x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v35) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000 : Shape := ⟨1, ![100000]⟩
abbrev S600000 : Shape := ⟨1, ![600000]⟩
abbrev S100000x128 : Shape := ⟨2, ![100000, 128]⟩
abbrev S4x128 : Shape := ⟨2, ![4, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S100000, .i32⟩
  | .hbm, ⟨3, _⟩ => ⟨S600000, .i32⟩
  | .hbm, ⟨4, _⟩ => ⟨S600000, .i32⟩
  | .hbm, ⟨5, _⟩ => ⟨S600000, .f32⟩
  | .hbm, ⟨6, _⟩ => ⟨S100000x128, .f32⟩
  | .hbm, ⟨7, _⟩ => ⟨S100000x128, .f32⟩
  | .hbm, ⟨8, _⟩ => ⟨S4x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S100000x128, .f32⟩
  | .hbm, ⟨20, _⟩ => ⟨S_, .i32⟩
  | .hbm, ⟨21, _⟩ => ⟨S100000, .i32⟩
  | .hbm, ⟨22, _⟩ => ⟨S100000, .i1⟩
  | .hbm, ⟨23, _⟩ => ⟨S_, .i32⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x128, .f32⟩
  | .hbm, ⟨39, _⟩ => ⟨S100000x128, .f32⟩
  | .hbm, ⟨40, _⟩ => ⟨S600000x1, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S100000x128, .f32⟩
  | .hbm, ⟨54, _⟩ => ⟨S600000x1, .i32⟩
  | .hbm, ⟨55, _⟩ => ⟨S100000x128, .f32⟩
  | .hbm, ⟨56, _⟩ => ⟨S128x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S100000x1_S100000x128_1_0_n_n_0_1_1128_wf : GatherDims.WF S100000x128 S100000x1 S100000x128 [1] [0] [] [0] [] 1 ![1, 128]
  gather_S4x128_S100000x1_S100000x128_1_0_n_n_0_1_1128_wf : GatherDims.WF S4x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S4x128_S100000x1_S100000x128_1_0_n_n_0_1_1128 : GatherDims S4x128 S100000x1 S100000x128 where
  offsetDims := [1]
  collapsedSliceDims := [0]
  operandBatchingDims := []
  startIndicesBatchingDims := []
  startIndexMap := [0]
  indexVectorDim := 1
  sliceSizes := ![1, 128]
  wf := gather_S4x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Linear.lean ====
/-
  The dense layer as one function of its three arrays.

  For a matrix `A` of `M` rows and 128 columns, a 128×128 matrix `Wt` and a vector `b` of 128 entries, entry `(r, j)`
  of the layer's result is `∑ k, A (r, k) * Wt (k, j) + b j`, over the extended reals. Row `r` of the result reads row
  `r` of `A` and nothing else of it, so a block of consecutive rows of the result is this same function of the same
  rows of `A` (`lin_rows`): that is all the tiling of the rows into blocks needs.
-/
import Idealize.ShloMosaic.Lib.ValueIdx

noncomputable section

namespace Cert.Linear

open Idealize.ShloMosaic Idealize.ShloMosaic.ValueIdx

/-- Entry `(r, j)` of `A · Wt + b`: the sum over the 128 contraction positions, then the bias of column `j`. -/
def lin {M : Nat} (A : FVec Ideal ⟨2, ![M, 128]⟩ .f32) (Wt : FVec Ideal ⟨2, ![128, 128]⟩ .f32) (b : FVec Ideal ⟨1, ![128]⟩ .f32) :
    FVec Ideal ⟨2, ![M, 128]⟩ .f32 :=
  fun i => ((∑ k : Fin 128, A (ix2 (n0 := M) (i 0) k) * Wt (ix2 k (i 1)) : EReal) + b (ix1 (i 1)) : EReal)

/-- The layer read at coordinates. -/
theorem lin_apply {M : Nat} (A : FVec Ideal ⟨2, ![M, 128]⟩ .f32) (Wt : FVec Ideal ⟨2, ![128, 128]⟩ .f32) (b : FVec Ideal ⟨1, ![128]⟩ .f32)
    (r : Fin M) (j : Fin 128) :
    lin A Wt b (ix2 r j) = ((∑ k : Fin 128, A (ix2 r k) * Wt (ix2 k j) : EReal) + b (ix1 j) : EReal) := rfl

/-- Rows of the result from rows of the operand: if the row of `A'` that index `j` names is the row of `A` that index
    `i` names, the two indices name the same column, and the matrices and biases agree, then the layer of `A'` at `j` is
    the layer of `A` at `i`. -/
theorem lin_rows {M M' : Nat} (A : FVec Ideal ⟨2, ![M, 128]⟩ .f32) (A' : FVec Ideal ⟨2, ![M', 128]⟩ .f32)
    (Wt Wt' : FVec Ideal ⟨2, ![128, 128]⟩ .f32) (b b' : FVec Ideal ⟨1, ![128]⟩ .f32) (hW : Wt' = Wt) (hb : b' = b)
    (i : (⟨2, ![M, 128]⟩ : Shape).Idx) (j : (⟨2, ![M', 128]⟩ : Shape).Idx) (hcol : j 1 = i 1)
    (hrow : ∀ k : Fin 128, A' (ix2 (n0 := M') (j 0) k) = A (ix2 (n0 := M) (i 0) k)) :
    lin A' Wt' b' j = lin A Wt b i := by
  subst hW hb
  unfold lin
  rw [hcol]
  exact congrArg (fun s : EReal => s + b' (ix1 (i 1))) (Finset.sum_congr rfl fun k _ => by rw [hrow k])

end Cert.Linear

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.BlockLinear.lean ====
/-
  The kernel body's stored value is the dense layer of its three loaded blocks.

  The body loads a block `x0` of 4000 rows of the aggregated features, the whole 128×128 matrix `x1` and the whole bias
  `x2`, narrows `x0` and `x1` to bf16 (over the extended reals a change of float format changes nothing), multiplies
  them into a zero accumulator, and adds the bias, re-laid as a 1×128 row and repeated down the 4000 rows. At entry
  `(p, q)` that is `∑ k, x0 (p, k) * x1 (k, q) + x2 q`: the product into the zero accumulator is the plain sum over the
  contraction position, and the repeated row reads the bias at the column.
-/
import proofs.«144672_j73452530696646_1_alg».proof.Proof.Gen.KernelIdeal.Skeleton
import proofs.«144672_j73452530696646_1_alg».proof.Proof.Linear
import proofs.«144672_j73452530696646_1_alg».proof.Proof.LibPlainDot
import Idealize.ShloMosaic.Lib.Pipeline.Value
import Idealize.ShloMosaic.Lib.ValueIdx

noncomputable section

namespace Cert.KernelIdeal.BlockLinear

open Cert.KernelIdeal Cert.KernelIdeal.Gen Idealize.ShloMosaic Idealize.ShloMosaic.ValueIdx Cert.Linear

/-- The body's product contracts the left operand's columns with the right operand's rows and has no batch axis: the
    plain 4000×128 by 128×128 product. -/
theorem dot_plain : dot_S4000x128_S128x128_S4000x128_1_0_0_1_n_n = DotDims.plain 4000 128 128 := rfl

/-- The bias viewed as a 1×128 row and repeated down 4000 rows holds, at `(p, q)`, the bias of column `q`. -/
theorem bias_apply (x2 : FVec Ideal S128 .f32) (h1 : S128.ShapeCasts S1x128) (h2 : S1x128.Broadcasts S4000x128)
    (p : Fin 4000) (q : Fin 128) :
    broadcastTo S4000x128 (shapeCast S1x128 x2 h1) h2 (ix2 p q) = x2 (ix1 q) := by
  refine (broadcastTo_apply _ h2 (ix2 p q) (ix2 (0 : Fin 1) q) (fun a => ?_)).trans ?_
  · match a with
    | ⟨0, _⟩ => show (0 : Nat) = if (1 : Nat) = 1 then 0 else _; rw [if_pos rfl]
    | ⟨1, _⟩ => show q.val = if (128 : Nat) = 1 then 0 else q.val; rw [if_neg (by decide)]
  · refine shapeCast_apply x2 h1 (ix2 (0 : Fin 1) q) (ix1 q) ?_
    rw [Shape.rowMajor_val_one, Shape.rowMajor_val_two]
    show q.val = 0 * 128 + q.val
    omega

/-- The stored value, entry by entry, is the dense layer of the three loaded blocks. -/
theorem pay_eq (x0 : Vec Ideal S4000x128 .f32) (x1 : Vec Ideal S128x128 .f32) (x2 : Vec Ideal S128 .f32) :
    k0_pay1 (F := Ideal) x0 x1 x2 = lin x0 x1 x2 := by
  funext j
  obtain ⟨p, q, rfl⟩ : ∃ (p : Fin 4000) (q : Fin 128), j = ix2 p q := ⟨j 0, j 1, eq_ix2 j⟩
  unfold k0_pay1
  rw [lin_apply]
  refine (addf_apply _ _ _).trans ?_
  refine congrArg₂ (fun a b : EReal => a + b) ?_ (bias_apply x2 _ _ p q)
  refine (Cert.Lib.PlainDot.matmul_zero_apply none _ _ p q).trans ?_
  refine Finset.sum_congr rfl fun k _ => ?_
  rw [truncf_apply, truncf_apply, shapeCast_self, shapeCast_self]

end Cert.KernelIdeal.BlockLinear

end
-- ==== Proof.ArrayLinear.lean ====
/-
  The kernel's result array is the dense layer of the arrays its region finds.

  The grid has 25 points. Point `t` stages rows `4000 t … 4000 t + 3999` of the aggregated features, the whole transposed
  weight matrix and the whole bias, and writes back rows `4000 t … 4000 t + 3999` of the result. What it writes is the
  dense layer of its three blocks, and a row of the dense layer reads only the same row of its first operand, so the
  written block is rows `4000 t …` of the dense layer of the WHOLE arrays. Row `r` of the result lies in the block of
  point `r / 4000`, so the 25 blocks cover the result, which therefore ends as the dense layer of the whole arrays.
-/
import proofs.«144672_j73452530696646_1_alg».proof.Proof.Gen.KernelIdeal.Value
import proofs.«144672_j73452530696646_1_alg».proof.Proof.BlockLinear

set_option maxRecDepth 16384

noncomputable section

namespace Cert.KernelIdeal.ArrayLinear

open Cert.KernelIdeal Cert.KernelIdeal.Gen Cert.KernelIdeal.Value Idealize.ShloMosaic Idealize.ShloMosaic.TcCoe Idealize.SL.Sem
open Idealize.ShloMosaic.ValueIdx Cert.Linear Cert.KernelIdeal.BlockLinear
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 25 points: the feature block and the result block of point `t` are block
    `t` along the rows and block 0 along the columns; the matrix and the bias are always their block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The dense layer of the arrays as the region finds them: the aggregated features, the transposed weight matrix, the bias. -/
abbrev wholeLin (c : Dev nD) : S100000x128.Idx → Elt Ideal .f32 :=
  lin (M := 100000) (V m c main_v35) (V m c main_v36) (V m c main_arg10)

/-- WHAT POINT `t` WRITES BACK is block `t` of the dense layer of the whole arrays. -/
theorem flushed_eq (c : Dev nD) (t : Fin cfg0.N) :
    (dats m 0 c).flushed 3 t = ((cfg0.win 3).blk t).view.read (Elt Ideal) (wholeLin m c) := by
  rw [Value.flushed3]
  unfold out0_3
  rw [View.canon_unit_zero zero2]
  simp only [View.ld_unit_zero (S := S4000x128) zero2, View.ld_unit_zero (S := S128x128) zero2, View.ld_unit_zero (S := S128) zero1]
  rw [pay_eq]
  obtain ⟨e0, e1, e2, e3, e4, e5, e6⟩ := idx_facts t
  funext j
  show lin (M := 4000) (iblk m c 0 t) (iblk m c 1 t) (iblk m c 2 t) j
    = lin (M := 100000) (V m c main_v35) (V m c main_v36) (V m c main_arg10) (((cfg0.win 3).blk t).view.emb j)
  -- the matrix and the bias are staged whole: their one block is the array itself
  have hW : (iblk m c 1 t : S128x128.Idx → Elt Ideal .f32) = V m c main_v36 := by
    funext y
    show V m c main_v36 (((cfg0.win 1).blk t).view.emb y) = V m c main_v36 y
    refine congrArg (V m c main_v36) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hB : (iblk m c 2 t : S128.Idx → Elt Ideal .f32) = V m c main_arg10 := by
    funext y
    show V m c main_arg10 (((cfg0.win 2).blk t).view.emb y) = V m c main_arg10 y
    refine congrArg (V m c main_arg10) (funext fun a => Fin.ext ?_)
    match a with
    | ⟨0, _⟩ => show win0_2.index t (0 : Fin 1) * 128 + 1 * (y 0).val = (y 0).val; omega
  refine lin_rows (V m c main_v35) (iblk m c 0 t) (V m c main_v36) (iblk m c 1 t) (V m c main_arg10) (iblk m c 2 t) hW hB
    (((cfg0.win 3).blk t).view.emb j) j ?_ ?_
  · -- the column is the block's column: both blocks are block 0 along the columns
    apply Fin.ext
    show (j 1).val = win0_3.index t (1 : Fin 2) * 128 + 1 * (j 1).val
    omega
  · -- row `p` of the feature block of point `t` is row `4000 t + p` of the features, as for the result block
    intro k
    show V m c main_v35 (((cfg0.win 0).blk t).view.emb (ix2 (n0 := 4000) (j 0) k)) = V m c main_v35 (ix2 (n0 := 100000) ((((cfg0.win 3).blk t).view.emb j) 0) k)
    refine congrArg (V m c main_v35) (funext fun a => Fin.ext ?_)
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 128 + 1 * k.val = k.val; omega

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v37).slice (win0_3.rect t)).set ↔ _
  rw [View.set_slice_whole, Rect.mem_set_unit]
  exact Iff.rfl

/-- THE BLOCKS COVER THE RESULT: row `r` lies in the block of point `r / 4000`, which is one of the 25 since `r < 100000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, e5, e6⟩ := idx_facts ⟨(i 0).val / 4000, ht⟩
  refine ⟨⟨(i 0).val / 4000, ht⟩, flush0_3 _, ?_⟩
  rw [mem_blk]
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e5]
    show (i 0).val / 4000 * 4000 ≤ (i 0).val ∧ (i 0).val < (i 0).val / 4000 * 4000 + 4000
    omega
  | ⟨1, _⟩ =>
    show win0_3.index ⟨(i 0).val / 4000, ht⟩ (1 : Fin 2) * 128 ≤ (i 1).val ∧ (i 1).val < win0_3.index ⟨(i 0).val / 4000, ht⟩ (1 : Fin 2) * 128 + 128
    rw [e6]
    omega

/-- THE RESULT ARRAY after the run is the dense layer of the arrays the region finds. -/
theorem final (c : Dev nD) : (dats m 0 c).arrAt 3 cfg0.N = wholeLin m c :=
  (dats m 0 c).arrAt_eq_of_cover 3 (wholeLin m c) (fun t _ => flushed_eq m c t) cover

/-- The frame run re-posted: the result array at the dense layer of the arrays the region finds, the arguments unchanged. -/
theorem run : θ_run defs (onTc (τ := τ) (main (F := Ideal))) ⟨m, fun _ => 0, ρ⟩ fun r => ∀ c : Dev nD,
      r.2.mem ((c : Thread nD τ).loc main_v37) = wholeLin m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayLinear

end
-- ==== Proof.RefLinear.lean ====
/-
  The reference's result is the dense layer of its aggregated features.

  The reference ends with a matrix product of the aggregated features (the scatter-add stage) with the transposed
  weight matrix, then adds the bias, viewed as a 1×128 row and repeated down the 100000 rows. Over the extended reals
  the host's product at entry `(r, j)` is the sum over the contraction position `k` of the left operand at `(r, k)`
  times the right at `(k, j)`, and the repeated row reads the bias at column `j`: the dense layer `lin` of those three
  arrays. Neither the aggregated features nor the transposed matrix is opened here: whatever they are, the last three
  stages are this function of them.
-/
import proofs.«144672_j73452530696646_1_alg».proof.Proof.Gen.ReferenceIdeal.Read
import proofs.«144672_j73452530696646_1_alg».proof.Proof.Linear

noncomputable section

namespace Cert.ReferenceIdeal.RefLinear

open Cert.ReferenceIdeal Cert.ReferenceIdeal.Read Idealize.ShloMosaic Idealize.ShloMosaic.ValueIdx Cert.Linear

/-- The last stage, index by index, is the dense layer of the scatter-add stage, the transposed-matrix stage and the bias. -/
theorem result_eq (x0 x1 x2 : (⟨S100000, .i32⟩ : BufTy).Contents (Elt Ideal)) (x3 x4 : (⟨S600000, .i32⟩ : BufTy).Contents (Elt Ideal))
    (x5 : (⟨S600000, .f32⟩ : BufTy).Contents (Elt Ideal)) (x6 x7 : (⟨S100000x128, .f32⟩ : BufTy).Contents (Elt Ideal))
    (x8 : (⟨S4x128, .f32⟩ : BufTy).Contents (Elt Ideal)) (x9 : (⟨S128x128, .f32⟩ : BufTy).Contents (Elt Ideal))
    (x10 : (⟨S128, .f32⟩ : BufTy).Contents (Elt Ideal)) :
    val_main_v40 (F := Ideal) x0 x1 x2 x3 x4 x5 x6 x7 x8 x9 x10
      = lin (val_main_v35 (F := Ideal) x0 x1 x2 x3 x4 x5 x6 x7 x8) (val_main_v36 (F := Ideal) x9) x10 := by
  funext i
  obtain ⟨r, j, rfl⟩ : ∃ (r : Fin 100000) (j : Fin 128), i = ix2 r j := ⟨i 0, i 1, eq_ix2 i⟩
  have el : ∀ k : Fin 128, lidx_main_v37 (ix2 r j) k = ix2 r k := fun k =>
    funext fun a => Fin.ext (by match a with | ⟨0, _⟩ => rfl | ⟨1, _⟩ => rfl)
  have er : ∀ k : Fin 128, ridx_main_v37 (ix2 r j) k = ix2 k j := fun k =>
    funext fun a => Fin.ext (by match a with | ⟨0, _⟩ => rfl | ⟨1, _⟩ => rfl)
  have eb : idx_main_v38 (idx_main_v39 (ix2 r j)) = ix1 j :=
    funext fun a => Fin.ext (by match a with | ⟨0, _⟩ => rfl)
  rw [val_main_v40_apply, val_main_v37_apply, val_main_v39_apply, val_main_v38_apply, lin_apply]
  simp only [el, er, eb]
  rfl

end Cert.ReferenceIdeal.RefLinear

end
-- ==== Proof.HostPrefix.lean ====
/-
  What the kernel's region finds in its two computed operand arrays.

  Before its one region the kernel's @main runs, operation for operation and constant for constant, the same host
  operations as the reference: the three wrapped-index row gathers summed into the node features, the gather of the
  edges' source rows scaled by the edge values, the scatter-add of those rows into a zero array (the aggregated
  features), and the transpose of the weight matrix. So the aggregated-features array and the transposed-matrix array
  the region finds are the reference's scatter-add stage and transpose stage of the same arguments. Neither is opened:
  the two sides apply the same operations with the same dimension records to the same arrays.
-/
import proofs.«144672_j73452530696646_1_alg».proof.Proof.Gen.KernelIdeal.Frame
import proofs.«144672_j73452530696646_1_alg».proof.Proof.Gen.ReferenceIdeal.Read
import Idealize.ShloMosaic.Lib.StableHlo.Run

set_option maxRecDepth 16384

noncomputable section

namespace Cert.KernelIdeal.HostPrefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The transposed weight matrix the region finds is the reference's transpose stage of the weight matrix. -/
theorem wt_eq (c : Dev nD) :
    (V m c main_v36 : S128x128.Idx → Elt Ideal .f32)
      = Cert.ReferenceIdeal.Read.val_main_v36 (F := Ideal) (m ((c : Thread nD τ).loc main_arg9)) := by
  dsimp only [Gen.V, Gen.hostOps0]
  after_results_simp
  rfl

set_option maxHeartbeats 2000000 in
/-- The aggregated features the region finds are the reference's scatter-add stage of the same nine arguments. -/
theorem agg_eq (c : Dev nD) :
    (V m c main_v35 : S100000x128.Idx → Elt Ideal .f32)
      = Cert.ReferenceIdeal.Read.val_main_v35 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  dsimp only [Gen.V, Gen.hostOps0]
  after_results_simp
  rfl

end Cert.KernelIdeal.HostPrefix

end
-- ==== Proof.lean ====
/-
  A graph-message-passing layer: node features gathered from three embedding tables and summed, the edges' source rows
  scaled by the edge values and scatter-added by destination row into the aggregated features `agg`, then the dense
  layer `agg · Wᵀ + b`. The kernel and the reference compute `agg` and `Wᵀ` by the same host operations; they differ
  only in the dense layer, which the kernel computes in a region of 25 grid points, each multiplying 4000 rows of
  `agg` by the whole of `Wᵀ` into a zero accumulator and adding the bias, and the reference as one host product of all
  100000 rows plus the bias repeated down the rows.

  Over the extended reals both are `out (r, j) = ∑ k, agg (r, k) * Wᵀ (k, j) + b j`:
  * a product into a zero accumulator, and the host's product, are both the plain sum over the contraction position
    (`LibPlainDot`), and narrowing the operands to bf16 changes nothing (`BlockLinear.pay_eq`, `RefLinear.result_eq`);
  * a row of the result reads only the same row of `agg`, so the block a grid point writes is the corresponding rows
    of the dense layer of the whole arrays, and the 25 blocks cover the result (`ArrayLinear.final`);
  * the arrays the region finds are the reference's own stages of the same arguments (`HostPrefix`).
  No law beyond these is used: nothing is distributed or cancelled, so the finiteness of the inputs is never opened.
  The three programs terminate without fault and leave their arguments unchanged by their generated runs; the
  idealization rewrote nothing, so that claim is trivial.
-/
import proofs.«144672_j73452530696646_1_alg».proof.Defs
import proofs.«144672_j73452530696646_1_alg».proof.Proof.Gen.Kernel
import proofs.«144672_j73452530696646_1_alg».proof.Proof.Gen.Kernel.Skeleton
import proofs.«144672_j73452530696646_1_alg».proof.Proof.Gen.Kernel.Launch
import proofs.«144672_j73452530696646_1_alg».proof.Proof.Gen.Kernel.Points
import proofs.«144672_j73452530696646_1_alg».proof.Proof.Gen.Kernel.Frame
import proofs.«144672_j73452530696646_1_alg».proof.Proof.Gen.KernelIdeal
import proofs.«144672_j73452530696646_1_alg».proof.Proof.Gen.KernelIdeal.Skeleton
import proofs.«144672_j73452530696646_1_alg».proof.Proof.Gen.KernelIdeal.Launch
import proofs.«144672_j73452530696646_1_alg».proof.Proof.Gen.KernelIdeal.Points
import proofs.«144672_j73452530696646_1_alg».proof.Proof.Gen.KernelIdeal.Frame
import proofs.«144672_j73452530696646_1_alg».proof.Proof.Gen.KernelIdeal.Value
import proofs.«144672_j73452530696646_1_alg».proof.Proof.Gen.ReferenceIdeal.Run
import proofs.«144672_j73452530696646_1_alg».proof.Proof.Gen.ReferenceIdeal.Read
import proofs.«144672_j73452530696646_1_alg».proof.Proof.Gen.ReferenceIdeal
import proofs.«144672_j73452530696646_1_alg».proof.Proof.Gen.Pre_finite_inputs
import proofs.«144672_j73452530696646_1_alg».proof.Proof.ArrayLinear
import proofs.«144672_j73452530696646_1_alg».proof.Proof.RefLinear
import proofs.«144672_j73452530696646_1_alg».proof.Proof.HostPrefix
import Idealize.ShloMosaic.Adequacy
import Idealize.ShloMosaic.Init

noncomputable section

namespace Cert.Proof

open Idealize.ShloMosaic Idealize.SL.Sem Cert.Linear

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's run, its result dropped
    exact fun m ρ _ => (θ_run Cert.ReferenceIdeal.defs _ _).mono (fun _ h c => (h c).2)
      (Cert.ReferenceIdeal.Value.run (F := Ideal) m ρ)
  · -- both results are the dense layer of the aggregated features, the transposed matrix and the bias
    intro m ρ m' ρ' _ hagree
    refine ⟨fun c => Cert.KernelIdeal.ArrayLinear.wholeLin m c, Cert.KernelIdeal.ArrayLinear.run m ρ, ?_⟩
    refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v40_eq, Cert.ReferenceIdeal.RefLinear.result_eq,
      a0, a1, a2, a3, a4, a5, a6, a7, a8, a9, a10]
    exact (congr (congr (congrArg (lin (M := 100000)) (Cert.KernelIdeal.HostPrefix.agg_eq m c))
      (Cert.KernelIdeal.HostPrefix.wt_eq m c)) (Cert.KernelIdeal.Gen.V_main_arg10 m c)).symm⟩

end Cert.Proof

end
